-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x512x512 : Shape := ⟨3, ![64, 512, 512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_

variable [Facts]

def fn {F : FTy → Type} [FloatOps F] (main_arg0 : FVec F S64x1024x512 .f32) (main_arg1 : FVec F S64x512x512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x1024x512 : Shape := ⟨3, ![64, 1024, 512]⟩
abbrev S64x512x512 : Shape := ⟨3, ![64, 512, 512]⟩
abbrev S64x128 : Shape := ⟨2, ![64, 128]⟩
abbrev S8x128x512 : Shape := ⟨3, ![8, 128, 512]⟩
abbrev S8x512x512 : Shape := ⟨3, ![8, 512, 512]⟩
abbrev S8x128 : Shape := ⟨2, ![8, 128]⟩
abbrev S8x512 : Shape := ⟨2, ![8, 512]⟩
abbrev S8x1 : Shape := ⟨2, ![8, 1]⟩
abbrev S8x128x1 : Shape := ⟨3, ![8, 128, 1]⟩
abbrev S8x512x1 : Shape := ⟨3, ![8, 512, 1]⟩
abbrev S8x1x512 : Shape := ⟨3, ![8, 1, 512]⟩
abbrev S8 : Shape := ⟨1, ![8]⟩
abbrev S64x1 : Shape := ⟨2, ![64, 1]⟩
abbrev S64 : Shape := ⟨1, ![64]⟩

abbrev nBuf : Space → Nat
  | .hbm => 5
  | .vmem => 7
  | .smem => 0
  | _ => 0

abbrev bufTy : (tb : Table) → Fin (tcTables nBuf tb) → BufTy
  | .hbm, ⟨0, _⟩ => ⟨S64x1024x512, .f32⟩
  | .hbm, ⟨1, _⟩ => ⟨S64x512x512, .f32⟩
  | .hbm, ⟨2, _⟩ => ⟨S64x128, .f32⟩
  | .hbm, ⟨3, _⟩ => ⟨S64x1, .f32⟩
  | .hbm, ⟨4, _⟩ => ⟨S64, .f32⟩
  | .local _ .vmem, ⟨0, _⟩ => ⟨S8x128x512, .f32⟩
  | .local _ .vmem, ⟨1, _⟩ => ⟨S8x128x512, .f32⟩
  | .local _ .vmem, ⟨2, _⟩ => ⟨S8x512x512, .f32⟩
  | .local _ .vmem, ⟨3, _⟩ => ⟨S8x128, .f32⟩
  | .local _ .vmem, ⟨4, _⟩ => ⟨S8x128, .f32⟩
  | .local _ .vmem, ⟨5, _⟩ => ⟨S8x512, .f32⟩
  | .local _ .vmem, ⟨6, _⟩ => ⟨S8x1, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_20 : BitVec 32 := 0#32
  let v37 : BitVec 1 := Scalar.cmpi .ne v36 c0_i32_20
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x512_S8x128x512_0_0_0 : ∀ a, (![0, 0, 0] : Fin 3 → Nat) a + S8x128x512.size a ≤ S8x128x512.size a
  h_S8x128x512 : 0 < S8x128x512.numel
  inb_S8x512x512_S8x512x512_0_0_0 : ∀ a, (![0, 0, 0] : Fin 3 → Nat) a + S8x512x512.size a ≤ S8x512x512.size a
  h_S8x512x512 : 0 < S8x512x512.numel
  reduces_S8x128x512_S8x128 : S8x128x512.Reduces [2] S8x128
  shapeCasts_S8x128_S8x128x1 : S8x128.ShapeCasts S8x128x1
  reduces_S8x512x512_S8x512 : S8x512x512.Reduces [2] S8x512
  shapeCasts_S8x512_S8x512x1 : S8x512.ShapeCasts S8x512x1
  transposes_S8x512x1_p0_2_1_S8x1x512 : S8x512x1.Transposes [0, 2, 1] S8x1x512
  bitsLt_bf16_f32 : FTy.bits .bf16 < FTy.bits .f32
  broadcasts_S8x128x1_S8x128x512 : S8x128x1.Broadcasts S8x128x512
  broadcasts_S8x1x512_S8x128x512 : S8x1x512.Broadcasts S8x128x512
  reduces_S8x128_S8 : S8x128.Reduces [1] S8
  shapeCasts_S8_S8x1 : S8.ShapeCasts S8x1
  reduces_S8x128x512_S8x512 : S8x128x512.Reduces [1] S8x512
  reduces_S8x512_S8 : S8x512.Reduces [1] S8
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  dot_S8x128x512_S8x512x512_S8x128x512_2_2_1_1_0_0_wf : DotDims.WF S8x128x512 S8x512x512 S8x128x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x1024x512.size a
  hwx0_0 : ∀ i : grid0.Coords, EltTy.bits .f32 = 32 ∨ (Rect.block (s := S64x1024x512) S8x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S8x128x512_S8x512x512_S8x128x512_2_2_1_1_0_0 : DotDims S8x128x512 S8x512x512 S8x128x512 where
  lhsContracting := [2]
  rhsContracting := [2]
  lhsNonContracting := [1]
  rhsNonContracting := [1]
  lhsBatch := [0]
  rhsBatch := [0]
  wf := dot_S8x128x512_S8x512x512_S8x128x512_2_2_1_1_0_0_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x512 : Shape := ⟨3, ![64, 1024, 512]⟩
abbrev S64x512x512 : Shape := ⟨3, ![64, 512, 512]⟩
abbrev S_ : Shape := ⟨0, ![]⟩
abbrev S64x1024 : Shape := ⟨2, ![64, 1024]⟩
abbrev S64x1024x1 : Shape := ⟨3, ![64, 1024, 1]⟩
abbrev S64x512 : Shape := ⟨2, ![64, 512]⟩
abbrev S64x512x1 : Shape := ⟨3, ![64, 512, 1]⟩
abbrev S64x1x512 : Shape := ⟨3, ![64, 1, 512]⟩
abbrev S64 : Shape := ⟨1, ![64]⟩

abbrev nBuf : Space → Nat
  | .hbm => 34
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x512x512, .f32⟩
  | .hbm, ⟨2, _⟩ => ⟨S64x1024x512, .f32⟩
  | .hbm, ⟨3, _⟩ => ⟨S_, .f32⟩
  | .hbm, ⟨4, _⟩ => ⟨S64x1024, .f32⟩
  | .hbm, ⟨5, _⟩ => ⟨S64x1024x1, .f32⟩
  | .hbm, ⟨6, _⟩ => ⟨S64x512x512, .f32⟩
  | .hbm, ⟨7, _⟩ => ⟨S_, .f32⟩
  | .hbm, ⟨8, _⟩ => ⟨S64x512, .f32⟩
  | .hbm, ⟨9, _⟩ => ⟨S64x512x1, .f32⟩
  | .hbm, ⟨10, _⟩ => ⟨S64x1024x512, .f32⟩
  | .hbm, ⟨11, _⟩ => ⟨S_, .f32⟩
  | .hbm, ⟨12, _⟩ => ⟨S64x1024x512, .f32⟩
  | .hbm, ⟨13, _⟩ => ⟨S64x1024x512, .f32⟩
  | .hbm, ⟨14, _⟩ => ⟨S64x1024x512, .f32⟩
  | .hbm, ⟨15, _⟩ => ⟨S64x1024x512, .f32⟩
  | .hbm, ⟨16, _⟩ => ⟨S64x1x512, .f32⟩
  | .hbm, ⟨17, _⟩ => ⟨S64x1024x512, .f32⟩
  | .hbm, ⟨18, _⟩ => ⟨S64x1024x512, .f32⟩
  | .hbm, ⟨19, _⟩ => ⟨S_, .f32⟩
  | .hbm, ⟨20, _⟩ => ⟨S64x1024, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64x512, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x1024x512_S64x1024_d2 : S64x1024x512.ReducesTo [2] S64x1024
  h_S_ : 0 < S_.numel
  bcast_S64x1024_S64x1024x1_0_1 : S64x1024.BroadcastsInDim S64x1024x1 (![0, 1] : Fin 2 → Fin S64x1024x1.rank)
  reducesTo_S64x512x512_S64x512_d2 : S64x512x512.ReducesTo [2] S64x512
  bcast_S64x512_S64x512x1_0_1 : S64x512.BroadcastsInDim S64x512x1 (![0, 1] : Fin 2 → Fin S64x512x1.rank)
  bcast_S_S64x1024x512 : S_.BroadcastsInDim S64x1024x512 (![] : Fin 0 → Fin S64x1024x512.rank)
  bcast_S64x1024x1_S64x1024x512_0_1_2 : S64x1024x1.BroadcastsInDim S64x1024x512 (![0, 1, 2] : Fin 3 → Fin S64x1024x512.rank)
  transposes_S64x512x1_S64x1x512_0_2_1 : S64x512x1.Transposes [0, 2, 1] S64x1x512
  bcast_S64x1x512_S64x1024x512_0_1_2 : S64x1x512.BroadcastsInDim S64x1024x512 (![0, 1, 2] : Fin 3 → Fin S64x1024x512.rank)
  reducesTo_S64x1024_S64_d1 : S64x1024.ReducesTo [1] S64
  bcast_S_S64 : S_.BroadcastsInDim S64 (![] : Fin 0 → Fin S64.rank)
  reducesTo_S64x1024x512_S64x512_d1 : S64x1024x512.ReducesTo [1] S64x512
  reducesTo_S64x512_S64_d1 : S64x512.ReducesTo [1] S64
  dot_S64x1024x512_S64x512x512_S64x1024x512_2_2_1_1_0_0_wf : DotDims.WF S64x1024x512 S64x512x512 S64x1024x512 [2] [2] [1] [1] [0] [0]

variable [Facts₀]

def dot_S64x1024x512_S64x512x512_S64x1024x512_2_2_1_1_0_0 : DotDims S64x1024x512 S64x512x512 S64x1024x512 where
  lhsContracting := [2]
  rhsContracting := [2]
  lhsNonContracting := [1]
  rhsNonContracting := [1]
  lhsBatch := [0]
  rhsBatch := [0]
  wf := dot_S64x1024x512_S64x512x512_S64x1024x512_2_2_1_1_0_0_wf

class Facts : Prop extends Facts₀ where

variable [Facts]
-- ==== Proof.KernelPieces.lean ====
/-
  What each control case of the kernel body leaves in the two carried scratch buffers and, at a tile row's last
  point, in the output block — read back as the body's pure payloads of the point's input blocks and of what the
  point before left:
    first point of a row   column minimum := update of +∞,   row sum := update of zero   (the reset is read back);
    every other point      column minimum := update of the carried one, row sum likewise;
    last point of a row    also the output block := the combination of the two updated values.
-/
import proofs.«142281_j9534827397593_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that is neither first nor last in its row of the grid -/

theorem colMin_mid (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : ¬cond0_0 i) (hc1 : ¬cond0_1 i) (x0 : Vec F S8x128x512 .f32) (x1 : Vec F S8x512x512 .f32)
    (xs0 : Vec F S8x512 .f32) (xs1 : Vec F S8x1 .f32) :
    sout0_B_0 c i a2 h2 a3 h3 a4 h4 a5 h5 a6 h6 hc0 hc1 x0 x1 xs0 xs1 = k0_pay1 (k0_pay7 x0 x1 xs0) := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

theorem rowSum_mid (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : ¬cond0_0 i) (hc1 : ¬cond0_1 i) (x0 : Vec F S8x128x512 .f32) (x1 : Vec F S8x512x512 .f32)
    (xs0 : Vec F S8x512 .f32) (xs1 : Vec F S8x1 .f32) :
    sout0_B_1 c i a2 h2 a3 h3 a4 h4 a5 h5 a6 h6 hc0 hc1 x0 x1 xs0 xs1 = k0_pay6 x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

/-! ## The last point of a row: the same updates, and the output block from the updated values -/

theorem colMin_last (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : ¬cond0_0 i) (hc1 : cond0_1 i) (x0 : Vec F S8x128x512 .f32) (x1 : Vec F S8x512x512 .f32)
    (xs0 : Vec F S8x512 .f32) (xs1 : Vec F S8x1 .f32) :
    sout0_C_0 c i a2 h2 a3 h3 a4 h4 a5 h5 a6 h6 hc0 hc1 x0 x1 xs0 xs1 = k0_pay1 (k0_pay7 x0 x1 xs0) := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

theorem rowSum_last (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : ¬cond0_0 i) (hc1 : cond0_1 i) (x0 : Vec F S8x128x512 .f32) (x1 : Vec F S8x512x512 .f32)
    (xs0 : Vec F S8x512 .f32) (xs1 : Vec F S8x1 .f32) :
    sout0_C_1 c i a2 h2 a3 h3 a4 h4 a5 h5 a6 h6 hc0 hc1 x0 x1 xs0 xs1 = k0_pay6 x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

theorem out_last (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : ¬cond0_0 i) (hc1 : cond0_1 i) (x0 : Vec F S8x128x512 .f32) (x1 : Vec F S8x512x512 .f32)
    (xs0 : Vec F S8x512 .f32) (xs1 : Vec F S8x1 .f32) :
    out0_C_2 c i a2 h2 a3 h3 a4 h4 a5 h5 a6 h6 hc0 hc1 x0 x1 xs0 xs1 = k0_pay2 (k0_pay6 x0 x1 xs1) (k0_pay1 (k0_pay7 x0 x1 xs0)) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

/-! ## The first point of a row: the reset values are stored, read back, and updated -/

theorem colMin_first (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : cond0_0 i) (hc1 : ¬cond0_1 i) (x0 : Vec F S8x128x512 .f32) (x1 : Vec F S8x512x512 .f32) :
    sout0_A_0 c i a2 h2 a3 h3 a4 h4 a5 h5 a6 h6 hc0 hc1 x0 x1 = k0_pay1 (k0_pay7 x0 x1 (k0_pay3 (F := F))) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S8x512) hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

theorem rowSum_first (c : Dev nD) (i : grid0.Coords) (a2 : Memref sig .tc .vmem S8x128x512 .f32) (h2 : a2.IsWhole)
    (a3 : Memref sig .tc .vmem S8x512x512 .f32) (h3 : a3.IsWhole) (a4 : Memref sig .tc .vmem S8x128 .f32) (h4 : a4.IsWhole)
    (a5 : Memref sig .tc .vmem S8x512 .f32) (h5 : a5.IsWhole) (a6 : Memref sig .tc .vmem S8x1 .f32) (h6 : a6.IsWhole)
    (hc0 : cond0_0 i) (hc1 : ¬cond0_1 i) (x0 : Vec F S8x128x512 .f32) (x1 : Vec F S8x512x512 .f32) :
    sout0_A_1 c i a2 h2 a3 h3 a4 h4 a5 h5 a6 h6 hc0 hc1 x0 x1 = k0_pay6 x0 x1 (k0_pay4 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S8x1) hz2]
  simp only [View.readAt_eq_ld, h2.read_unread, h3.read_unread, h5.read_unread, h6.read_unread,
    View.ld_unit_zero (S := S8x128x512) hz3, View.ld_unit_zero (S := S8x512x512) hz3, View.ld_unit_zero (S := S8x512) hz2,
    View.ld_unit_zero (S := S8x1) hz2, View.readCov_unit_zero (S := S8x512) _ hz2, View.readCov_unit_zero (S := S8x1) _ hz2]

end Cert.KernelIdeal.Pieces

end
-- ==== Proof.ChamferSpec.lean ====
/-
  The chamfer value both programs compute, as a function of the two argument arrays over the extended reals:
  for a batch b, with d(v, l) = (|x_v|² − 2·⟨x_v, y_l⟩) + |y_l|² the expanded squared distance,
      chamfer b = (∑_v min_l d(v, l)) / Nv + (∑_l min_v d(v, l)) / Nl .
  The kernel walks the v axis in eight tiles of 128 rows, keeping a running sum of the row minima and a running
  minimum down the columns: `rowSumUpTo` and `colMinUpTo` below are those running values after tile k.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The shapes of the two arguments, [B, Nv, D] and [B, Nl, D], and of one grid point's blocks of them. -/
abbrev SX : Shape := ⟨3, ![64, 1024, 512]⟩
abbrev SY : Shape := ⟨3, ![64, 512, 512]⟩
abbrev SXb : Shape := ⟨3, ![8, 128, 512]⟩
abbrev SYb : Shape := ⟨3, ![8, 512, 512]⟩

/-- The four float literals of the two programs, kept as their words: 2.0, +∞, 1024.0 and 512.0. -/
def two : EReal := Ideal.ofBits .f32 0x40000000#32
def pinf : EReal := Ideal.ofBits .f32 0x7F800000#32
def nv : EReal := Ideal.ofBits .f32 0x44800000#32
def nl : EReal := Ideal.ofBits .f32 0x44000000#32

/-! ## The distance, generic in the extents (used at the whole arrays and at one point's blocks) -/

section Dist
variable {B V L : Nat}

/-- d(v, l) for batch b over arrays x : [B, V, 512], y : [B, L, 512]. -/
def dist (x : (⟨3, ![B, V, 512]⟩ : Shape).Idx → EReal) (y : (⟨3, ![B, L, 512]⟩ : Shape).Idx → EReal)
    (b : Fin B) (v : Fin V) (l : Fin L) : EReal :=
  ((∑ d : Fin 512, x (ix3 b v d) * x (ix3 b v d)) - two * ∑ d : Fin 512, x (ix3 b v d) * y (ix3 b l d))
    + ∑ d : Fin 512, y (ix3 b l d) * y (ix3 b l d)

end Dist

/-! ## The value -/

variable (X : SX.Idx → EReal) (Y : SY.Idx → EReal)

/-- The nearest y-row to x-row v, and the nearest x-row to y-row l, as folds of min from +∞. -/
def rowMin (b : Fin 64) (v : Fin 1024) : EReal := (Finset.univ : Finset (Fin 512)).fold min pinf (fun l => dist X Y b v l)
def colMin (b : Fin 64) (l : Fin 512) : EReal := (Finset.univ : Finset (Fin 1024)).fold min pinf (fun v => dist X Y b v l)

/-- The chamfer value of batch b. -/
def chamfer (b : Fin 64) : EReal :=
  Ideal.div (∑ v : Fin 1024, rowMin X Y b v) nv + Ideal.div (∑ l : Fin 512, colMin X Y b l) nl

/-! ## The kernel's tiling: batch tile i, row r inside it; v-tile k, row n inside it -/

def bAt (i : Fin 8) (r : Fin 8) : Fin 64 := ⟨8 * i.val + r.val, by omega⟩
def vAt (k : Fin 8) (n : Fin 128) : Fin 1024 := ⟨128 * k.val + n.val, by omega⟩

/-- One v-tile's contribution: the sum of its 128 row minima, and the minimum down its 128 rows. -/
def tileRowSum (b : Fin 64) (k : Fin 8) : EReal := ∑ n : Fin 128, rowMin X Y b (vAt k n)
def tileColMin (b : Fin 64) (k : Fin 8) (l : Fin 512) : EReal :=
  (Finset.univ : Finset (Fin 128)).fold min pinf (fun n => dist X Y b (vAt k n) l)

/-- The v-tiles up to and including tile k. -/
def upTo (k : ℕ) : Finset (Fin 8) := Finset.univ.filter fun k' => k'.val ≤ k

/-- The running values after tile k. -/
def rowSumUpTo (b : Fin 64) (k : ℕ) : EReal := ∑ k' ∈ upTo k, tileRowSum X Y b k'
def colMinUpTo (b : Fin 64) (k : ℕ) (l : Fin 512) : EReal := (upTo k).fold min pinf (fun k' => tileColMin X Y b k' l)

end Cert.Chamfer

end
-- ==== Proof.KernelBlocks.lean ====
/-
  One grid point's input blocks, read at an index: point t works on batch tile t / 8 and on v-tile t % 8, so entry
  (r, n, d) of its block of x is x (8·(t/8) + r, 128·(t%8) + n, d), and entry (r, l, d) of its block of y is
  y (8·(t/8) + r, l, d) — the whole l range at every point.
-/
import proofs.«142281_j9534827397593_1_alg».proof.Proof.Gen.KernelIdeal.Frame
import proofs.«142281_j9534827397593_1_alg».proof.Proof.ChamferSpec
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks
open Cert.KernelIdeal Cert.KernelIdeal.Gen Cert.Chamfer Idealize.ShloMosaic.ValueIdx
variable {F : FTy → Type} [FloatOps F]
variable (m : (ℓ : Loc nD τ sig) → Buf (Elt F) ℓ)

/-- The batch tile and the v-tile of grid point t. -/
def tileOf (t : Fin cfg0.N) : Fin 8 := ⟨t.val / 8, by have := t.isLt; have : cfg0.N = 64 := N_0; omega⟩
def stepOf (t : Fin cfg0.N) : Fin 8 := ⟨t.val % 8, Nat.mod_lt _ (by decide)⟩

/-- The two argument arrays and the point's blocks of them, at their literal types. -/
abbrev xarr (c : Dev nD) : Vec F S64x1024x512 .f32 := m ((c : Thread nD τ).loc main_arg0)
abbrev yarr (c : Dev nD) : Vec F S64x512x512 .f32 := m ((c : Thread nD τ).loc main_arg1)
abbrev xblk (c : Dev nD) (t : Fin cfg0.N) : Vec F S8x128x512 .f32 := iblk m c 0 t
abbrev yblk (c : Dev nD) (t : Fin cfg0.N) : Vec F S8x512x512 .f32 := iblk m c 1 t

/-- The printed index maps over the grid. -/
theorem idx_x : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx_y : ∀ t : Fin cfg0.N, win0_1.index t (0 : Fin 3) = t.val / 8 ∧ win0_1.index t (1 : Fin 3) = 0
    ∧ win0_1.index t (2 : Fin 3) = 0 :=
  (by decide +kernel : ∀ t : Fin grid0.N, _)

theorem xblk_apply (c : Dev nD) (t : Fin cfg0.N) (r : Fin 8) (n : Fin 128) (d : Fin 512) :
    xblk m c t (ix3 r n d) = xarr m c (ix3 (bAt (tileOf t) r) (vAt (stepOf t) n) d) := by
  obtain ⟨e0, e1, e2⟩ := idx_x t
  show iblk m c 0 t (ix3 r n d) = _
  unfold iblk
  rw [View.read_apply]
  show V m c main_arg0 _ = m (c.tc.loc main_arg0) _
  unfold V
  congr 1
  funext a
  apply Fin.ext
  match a with
  | ⟨0, _⟩ => show win0_0.index t (0 : Fin 3) * 8 + 1 * r.val = 8 * (t.val / 8) + r.val; rw [e0]; omega
  | ⟨1, _⟩ => show win0_0.index t (1 : Fin 3) * 128 + 1 * n.val = 128 * (t.val % 8) + n.val; rw [e1]; omega
  | ⟨2, _⟩ => show win0_0.index t (2 : Fin 3) * 512 + 1 * d.val = d.val; rw [e2]; omega

theorem yblk_apply (c : Dev nD) (t : Fin cfg0.N) (r : Fin 8) (l : Fin 512) (d : Fin 512) :
    yblk m c t (ix3 r l d) = yarr m c (ix3 (bAt (tileOf t) r) l d) := by
  obtain ⟨e0, e1, e2⟩ := idx_y t
  show iblk m c 1 t (ix3 r l d) = _
  unfold iblk
  rw [View.read_apply]
  show V m c main_arg1 _ = m (c.tc.loc main_arg1) _
  unfold V
  congr 1
  funext a
  apply Fin.ext
  match a with
  | ⟨0, _⟩ => show win0_1.index t (0 : Fin 3) * 8 + 1 * r.val = 8 * (t.val / 8) + r.val; rw [e0]; omega
  | ⟨1, _⟩ => show win0_1.index t (1 : Fin 3) * 512 + 1 * l.val = l.val; rw [e1]; omega
  | ⟨2, _⟩ => show win0_1.index t (2 : Fin 3) * 512 + 1 * d.val = d.val; rw [e2]; omega

end Cert.KernelIdeal.Blocks

end
-- ==== Proof.KernelPayloads.lean ====
/-
  The kernel body's arithmetic, read at an index over the extended reals: the distance block of one grid point,
  the row-sum update, the column-minimum update, the final combination, and the two reset values.
-/
import proofs.«142281_j9534827397593_1_alg».proof.Proof.Gen.KernelIdeal.Skeleton
import proofs.«142281_j9534827397593_1_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Idealize.ShloMosaic Idealize.ShloMosaic.ValueIdx Cert.KernelIdeal Cert.KernelIdeal.Gen Cert.Chamfer

/-! ## Layout operations at coordinates: the keepdims casts and the broadcasts along a unit axis -/

section Layout
variable {α : Type}

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1]` column broadcast to `[a, b]` reads, at `(i, j)`, the operand at `(i, 0)`. -/
private theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## Reductions along one axis at coordinates -/

/-- The index over `(i, j)` with `k` inserted on the last of three axes is `(i, j, k)`. -/
private theorem lift3_axis2 {a b c : ℕ} (h : (⟨3, ![a, b, c]⟩ : Shape).Reduces [2] ⟨2, ![a, b]⟩)
    (i : Fin a) (j : Fin b) (k : Fin c) : h.lift (ix2 i j) k = ix3 i j k :=
  funext fun ax => Fin.ext (by
    match ax with
    | ⟨0, _⟩ => rfl
    | ⟨1, _⟩ => rfl
    | ⟨2, _⟩ => rfl)

/-- The index over `(i, k)` with `j` inserted on the middle of three axes is `(i, j, k)`. -/
private theorem lift3_axis1 {a b c : ℕ} (h : (⟨3, ![a, b, c]⟩ : Shape).Reduces [1] ⟨2, ![a, c]⟩)
    (i : Fin a) (j : Fin b) (k : Fin c) : h.lift (ix2 i k) j = ix3 i j k :=
  funext fun ax => Fin.ext (by
    match ax with
    | ⟨0, _⟩ => rfl
    | ⟨1, _⟩ => rfl
    | ⟨2, _⟩ => rfl)

/-- The index over `i` with `j` inserted on the second of two axes is `(i, j)`. -/
private theorem lift2_axis1 {a b : ℕ} (h : (⟨2, ![a, b]⟩ : Shape).Reduces [1] ⟨1, ![a]⟩)
    (i : Fin a) (j : Fin b) : h.lift (ix1 i) j = ix2 i j :=
  funext fun ax => Fin.ext (by
    match ax with
    | ⟨0, _⟩ => rfl
    | ⟨1, _⟩ => rfl)

/-- A `minimumf` reduction over one axis, over the extended reals: the fold of `min` from the accumulator's value over
    that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the last of three axes reads, at `(i, j)`, the sum over `k` of the source at `(i, j, k)`. -/
private theorem sum_axis2_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc _).trans
    (Finset.sum_congr rfl fun k _ => congrArg src (lift3_axis2 h i j k))

/-- A sum over the second of two axes reads, at `i`, the sum over `j` of the source at `(i, j)`. -/
private theorem sum_axis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ j : Fin b, src (ix2 i j) :=
  (Ideal.multiReduction_add_single src acc h hφ hacc _).trans
    (Finset.sum_congr rfl fun j _ => congrArg src (lift2_axis1 h i j))

/-- A minimum over the last of three axes reads, at `(i, j)`, the fold of `min` over `k` of the source at `(i, j, k)`. -/
private theorem min_axis2_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin c)).fold min (Ideal.ofBits φ acc) (fun k => src (ix3 i j k)) :=
  (multiReduction_minimumf_single src acc h hφ hacc _).trans
    (congrArg (Finset.fold min (Ideal.ofBits φ acc) · (Finset.univ : Finset (Fin c)))
      (funext fun k => congrArg src (lift3_axis2 h i j k)))

/-- A minimum over the middle of three axes reads, at `(i, k)`, the fold of `min` over `j` of the source at `(i, j, k)`. -/
private theorem min_axis1_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (i : Fin a) (k : Fin c) :
    multiReduction .minimumf [1] ⟨2, ![a, c]⟩ src acc h hφ hacc (ix2 i k)
      = (Finset.univ : Finset (Fin b)).fold min (Ideal.ofBits φ acc) (fun j => src (ix3 i j k)) :=
  (multiReduction_minimumf_single src acc h hφ hacc _).trans
    (congrArg (Finset.fold min (Ideal.ofBits φ acc) · (Finset.univ : Finset (Fin b)))
      (funext fun j => congrArg src (lift3_axis1 h i j k)))

/-! ## The batched product at an index -/

private theorem lhs_dot_0 (i : S8x128x512.Idx) (q : dot_S8x128x512_S8x512x512_S8x128x512_2_2_1_1_0_0.contr.Idx) :
    (dot_S8x128x512_S8x512x512_S8x128x512_2_2_1_1_0_0.lhsIdx i q 0).val = (i 0).val := by
  unfold DotDims.lhsIdx
  rw [dif_pos (show (0 : Fin S8x128x512.rank) ∈ dot_S8x128x512_S8x512x512_S8x128x512_2_2_1_1_0_0.lhsBatch by decide)]
  rfl
private theorem lhs_dot_1 (i : S8x128x512.Idx) (q : dot_S8x128x512_S8x512x512_S8x128x512_2_2_1_1_0_0.contr.Idx) :
    (dot_S8x128x512_S8x512x512_S8x128x512_2_2_1_1_0_0.lhsIdx i q 1).val = (i 1).val := by
  unfold DotDims.lhsIdx
  rw [dif_neg (show ¬(1 : Fin S8x128x512.rank) ∈ dot_S8x128x512_S8x512x512_S8x128x512_2_2_1_1_0_0.lhsBatch by decide), dif_pos (show (1 : Fin S8x128x512.rank) ∈ dot_S8x128x512_S8x512x512_S8x128x512_2_2_1_1_0_0.lhsNonContracting by decide)]
  rfl
private theorem lhs_dot_2 (i : S8x128x512.Idx) (q : dot_S8x128x512_S8x512x512_S8x128x512_2_2_1_1_0_0.contr.Idx) :
    (dot_S8x128x512_S8x512x512_S8x128x512_2_2_1_1_0_0.lhsIdx i q 2).val = (q ⟨0, by decide⟩).val :=
  dot_S8x128x512_S8x512x512_S8x128x512_2_2_1_1_0_0.lhsIdx_val_of_single rfl i q
private theorem rhs_dot_0 (i : S8x128x512.Idx) (q : dot_S8x128x512_S8x512x512_S8x128x512_2_2_1_1_0_0.contr.Idx) :
    (dot_S8x128x512_S8x512x512_S8x128x512_2_2_1_1_0_0.rhsIdx i q 0).val = (i 0).val := by
  unfold DotDims.rhsIdx
  rw [dif_pos (show (0 : Fin S8x512x512.rank) ∈ dot_S8x128x512_S8x512x512_S8x128x512_2_2_1_1_0_0.rhsBatch by decide)]
  rfl
private theorem rhs_dot_1 (i : S8x128x512.Idx) (q : dot_S8x128x512_S8x512x512_S8x128x512_2_2_1_1_0_0.contr.Idx) :
    (dot_S8x128x512_S8x512x512_S8x128x512_2_2_1_1_0_0.rhsIdx i q 1).val = (i 2).val := by
  unfold DotDims.rhsIdx
  rw [dif_neg (show ¬(1 : Fin S8x512x512.rank) ∈ dot_S8x128x512_S8x512x512_S8x128x512_2_2_1_1_0_0.rhsBatch by decide), dif_pos (show (1 : Fin S8x512x512.rank) ∈ dot_S8x128x512_S8x512x512_S8x128x512_2_2_1_1_0_0.rhsNonContracting by decide)]
  rfl
private theorem rhs_dot_2 (i : S8x128x512.Idx) (q : dot_S8x128x512_S8x512x512_S8x128x512_2_2_1_1_0_0.contr.Idx) :
    (dot_S8x128x512_S8x512x512_S8x128x512_2_2_1_1_0_0.rhsIdx i q 2).val = (q ⟨0, by decide⟩).val :=
  dot_S8x128x512_S8x512x512_S8x128x512_2_2_1_1_0_0.rhsIdx_val_of_single rfl i q

/-- The batched product into a zero accumulator reads, at `(r, n, l)`, the inner product of row `n` of the left block
    with row `l` of the right block, both of batch row `r`. -/
private theorem cross_apply {φ₁ φ₂ : FTy} (A : FVec Ideal S8x128x512 φ₁) (B : FVec Ideal S8x512x512 φ₂)
    (r : Fin 8) (n : Fin 128) (l : Fin 512) :
    matmul dot_S8x128x512_S8x512x512_S8x128x512_2_2_1_1_0_0 none A B (constant (F := Ideal) S8x128x512 .f32 0x00000000#32) (ix3 r n l)
      = ∑ k : Fin 512, A (ix3 r n k) * B (ix3 r l k) := by
  simp only [matmul]
  rw [Ideal.matmul_constant_zero_apply, ← Equiv.sum_comp (ValueIdx.contrEquiv1 dot_S8x128x512_S8x512x512_S8x128x512_2_2_1_1_0_0 512 rfl rfl).symm]
  refine Finset.sum_congr rfl fun k _ => ?_
  have hk := ValueIdx.contrEquiv1_symm_val dot_S8x128x512_S8x512x512_S8x128x512_2_2_1_1_0_0 512 rfl rfl k
  have el : dot_S8x128x512_S8x512x512_S8x128x512_2_2_1_1_0_0.lhsIdx (ix3 r n l) ((ValueIdx.contrEquiv1 dot_S8x128x512_S8x512x512_S8x128x512_2_2_1_1_0_0 512 rfl rfl).symm k) = ix3 r n k := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x128x512_S8x512x512_S8x128x512_2_2_1_1_0_0.rhsIdx (ix3 r n l) ((ValueIdx.contrEquiv1 dot_S8x128x512_S8x512x512_S8x128x512_2_2_1_1_0_0 512 rfl rfl).symm k) = ix3 r l k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The payloads -/

variable (xb : Vec Ideal S8x128x512 .f32) (yb : Vec Ideal S8x512x512 .f32)

/-- The distance block: entry (r, n, l) is d(n, l) of batch row r of the two blocks. -/
theorem pay5_apply (r : Fin 8) (n : Fin 128) (l : Fin 512) :
    k0_pay5 (F := Ideal) xb yb (ix3 r n l) = dist xb yb r n l := by
  unfold k0_pay5 Cert.Chamfer.dist
  simp only [addf_apply, subf_apply, mulf_apply, broadcast_apply]
  refine congrArg₂ (· + ·) (congrArg₂ (· - ·) ?_ (congrArg (two * ·) ?_)) ?_
  · exact (broadcastTo_ab1_abc_apply _ _ r n l).trans
      ((shapeCast_ab_ab1_apply _ _ r n 0).trans (sum_axis2_apply _ _ _ _ _ r n))
  · exact cross_apply _ _ r n l
  · exact (broadcastTo_a1c_abc_apply _ _ r n l).trans
      ((transpose_ix3_021_apply _ _ r 0 l).trans
        ((shapeCast_ab_ab1_apply _ _ r l 0).trans (sum_axis2_apply _ _ _ _ _ r l)))

/-- The row-sum update: the carried sum plus this tile's 128 row minima. -/
theorem pay6_apply (rs : Vec Ideal S8x1 .f32) (r : Fin 8) (z : Fin 1) :
    k0_pay6 (F := Ideal) xb yb rs (ix2 r z)
      = rs (ix2 r z) + ∑ n : Fin 128, (Finset.univ : Finset (Fin 512)).fold min pinf (fun l => dist xb yb r n l) := by
  unfold k0_pay6
  simp only [shapeCast_self, addf_apply]
  refine congrArg (rs (ix2 r z) + ·) ?_
  refine (shapeCast_a_a1_apply _ _ r z).trans ((sum_axis1_apply _ _ _ _ _ r).trans ?_)
  refine Finset.sum_congr rfl fun n _ => ?_
  refine (min_axis2_apply _ _ _ _ _ r n).trans ?_
  simp only [pay5_apply]
  rfl

/-- The column-minimum update: the carried minimum against this tile's minimum down its 128 rows. -/
theorem pay7_apply (cm : Vec Ideal S8x512 .f32) (r : Fin 8) (l : Fin 512) :
    k0_pay7 (F := Ideal) xb yb cm (ix2 r l)
      = min (cm (ix2 r l)) ((Finset.univ : Finset (Fin 128)).fold min pinf (fun n => dist xb yb r n l)) := by
  unfold k0_pay7
  simp only [minimumf_apply]
  refine congrArg (min (cm (ix2 r l)) ·) ?_
  refine (min_axis1_apply _ _ _ _ _ r l).trans ?_
  simp only [pay5_apply]
  rfl

/-- The final combination, the same in every lane q. -/
theorem pay2_apply (rs : Vec Ideal S8x1 .f32) (cm : Vec Ideal S8x512 .f32) (r : Fin 8) (q : Fin 128) :
    k0_pay2 (F := Ideal) rs cm (ix2 r q)
      = Ideal.div (rs (ix2 r 0)) nv + Ideal.div (∑ l : Fin 512, cm (ix2 r l)) nl := by
  unfold k0_pay2
  refine (broadcastTo_a1_ab_apply _ _ r q).trans ?_
  simp only [shapeCast_self, addf_apply, divf_apply, broadcast_apply]
  refine congrArg₂ (· + ·) rfl (congrArg (Ideal.div · nl) ?_)
  exact (shapeCast_a_a1_apply _ _ r 0).trans (sum_axis1_apply _ _ _ _ _ r)

/-- The reset values: +∞ for the column minimum, zero for the row sum. -/
theorem pay3_apply (r : Fin 8) (l : Fin 512) : k0_pay3 (F := Ideal) (ix2 r l) = pinf := by
  unfold k0_pay3
  rw [shapeCast_self]
  rfl
theorem pay4_apply (r : Fin 8) (z : Fin 1) : k0_pay4 (F := Ideal) (ix2 r z) = 0 := by
  unfold k0_pay4
  rw [shapeCast_self]
  exact Ideal.ofBits_zero_f32

/-- The stored column minimum is the updated one (a cast between equal shapes). -/
theorem pay1_eq (v : FVec Ideal S8x512 .f32) : k0_pay1 (F := Ideal) v = v := by
  unfold k0_pay1
  exact shapeCast_self v _

end Cert.KernelIdeal.Payloads

end
-- ==== Proof.ChamferTiles.lean ====
/-
  The running sum of row minima and the running column minimum, tile by tile: what one more tile adds, and that
  after the last of the eight tiles they are the whole sum over v and the whole minimum over v. Sums and minima
  over the extended reals regroup freely (a commutative monoid; a linear order), so no finiteness is used.
-/
import proofs.«142281_j9534827397593_1_alg».proof.Proof.ChamferSpec

noncomputable section

open scoped BigOperators

namespace Cert.Chamfer

open Idealize.ShloMosaic Idealize.ShloMosaic.ValueIdx

variable (X : SX.Idx → EReal) (Y : SY.Idx → EReal)

/-! ### The index sets: tiles 0..k as a finite set of tile indices -/

/-- Only tile 0 is at most 0. -/
private theorem upTo_zero : upTo 0 = {(0 : Fin 8)} := by
  ext j
  have hj := j.isLt
  simp only [upTo, Finset.mem_filter, Finset.mem_univ, true_and, Finset.mem_singleton, Fin.ext_iff,
    Fin.val_zero]
  omega

/-- The tiles up to k + 1 are tile k + 1 together with the tiles up to k. -/
private theorem upTo_succ (k : ℕ) (hk : k + 1 < 8) :
    upTo (k + 1) = insert (⟨k + 1, hk⟩ : Fin 8) (upTo k) := by
  ext j
  simp only [upTo, Finset.mem_filter, Finset.mem_univ, true_and, Finset.mem_insert, Fin.ext_iff]
  omega

/-- Tile k + 1 is not among the tiles up to k. -/
private theorem not_mem_upTo (k : ℕ) (hk : k + 1 < 8) : (⟨k + 1, hk⟩ : Fin 8) ∉ upTo k := by
  simp only [upTo, Finset.mem_filter, Finset.mem_univ, true_and]
  omega

/-- Every one of the eight tiles is at most 7. -/
private theorem upTo_seven : upTo 7 = Finset.univ := by
  ext j
  have hj := j.isLt
  simp only [upTo, Finset.mem_filter, Finset.mem_univ, true_and, iff_true]
  omega

/-! ### Row v of the whole array is row v % 128 of tile v / 128 -/

/-- The row of the whole array that is row n of tile k, inverted by quotient and remainder by 128. -/
private theorem vAt_divMod (v : Fin 1024) :
    vAt ⟨v.val / 128, by have := v.isLt; omega⟩ ⟨v.val % 128, Nat.mod_lt _ (by norm_num)⟩ = v := by
  apply Fin.ext
  simp only [vAt]
  omega

/-- (tile, row in tile) ↦ row of the whole array is a bijection of Fin 8 × Fin 128 with Fin 1024. -/
private def tileEquiv : Fin 8 × Fin 128 ≃ Fin 1024 where
  toFun p := vAt p.1 p.2
  invFun v := (⟨v.val / 128, by have := v.isLt; omega⟩, ⟨v.val % 128, Nat.mod_lt _ (by norm_num)⟩)
  left_inv p := by
    rcases p with ⟨k, n⟩
    have hn := n.isLt
    apply Prod.ext
    · apply Fin.ext
      simp only [vAt]
      omega
    · apply Fin.ext
      simp only [vAt]
      omega
  right_inv v := vAt_divMod v

/-- A sum over the 1024 rows is the sum over the tiles of the sums over each tile's rows. -/
private theorem sum_tiles (g : Fin 1024 → EReal) :
    ∑ k : Fin 8, ∑ n : Fin 128, g (vAt k n) = ∑ v : Fin 1024, g v := by
  rw [← Fintype.sum_prod_type' (fun k n => g (vAt k n))]
  exact Fintype.sum_equiv tileEquiv _ _ (fun _ => rfl)

/-- After the first tile: zero plus its sum; +∞ against its minimum. -/
theorem rowSumUpTo_zero (b : Fin 64) : rowSumUpTo X Y b 0 = 0 + tileRowSum X Y b 0 := by
  unfold rowSumUpTo
  rw [upTo_zero, Finset.sum_singleton, zero_add]
theorem colMinUpTo_zero (b : Fin 64) (l : Fin 512) : colMinUpTo X Y b 0 l = min pinf (tileColMin X Y b 0 l) := by
  unfold colMinUpTo
  rw [upTo_zero, Finset.fold_singleton, min_comm]

/-- One more tile: add its sum; take the minimum with its minimum. -/
theorem rowSumUpTo_succ (b : Fin 64) (k : ℕ) (hk : k + 1 < 8) :
    rowSumUpTo X Y b (k + 1) = rowSumUpTo X Y b k + tileRowSum X Y b ⟨k + 1, hk⟩ := by
  unfold rowSumUpTo
  rw [upTo_succ k hk, Finset.sum_insert (not_mem_upTo k hk), add_comm]
theorem colMinUpTo_succ (b : Fin 64) (k : ℕ) (hk : k + 1 < 8) (l : Fin 512) :
    colMinUpTo X Y b (k + 1) l = min (colMinUpTo X Y b k l) (tileColMin X Y b ⟨k + 1, hk⟩ l) := by
  unfold colMinUpTo
  rw [upTo_succ k hk, Finset.fold_insert (not_mem_upTo k hk), min_comm]

/-- After the last tile the running values are the whole sum and the whole minimum. -/
theorem rowSumUpTo_last (b : Fin 64) : rowSumUpTo X Y b 7 = ∑ v : Fin 1024, rowMin X Y b v := by
  unfold rowSumUpTo tileRowSum
  rw [upTo_seven]
  exact sum_tiles (fun v => rowMin X Y b v)
theorem colMinUpTo_last (b : Fin 64) (l : Fin 512) : colMinUpTo X Y b 7 l = colMin X Y b l := by
  -- Both sides have the same lower bounds: a bound of every row's distance, tile by tile, is a bound of
  -- every row's distance, since each row lies in exactly one tile.
  unfold colMinUpTo colMin tileColMin
  rw [upTo_seven]
  refine eq_of_forall_le_iff fun a => ?_
  simp only [Finset.le_fold_min, Finset.mem_univ, forall_true_left]
  constructor
  · rintro ⟨h0, h⟩
    refine ⟨h0, fun v => ?_⟩
    have hv := (h ⟨v.val / 128, by have := v.isLt; omega⟩).2 ⟨v.val % 128, Nat.mod_lt _ (by norm_num)⟩
    rwa [vAt_divMod v] at hv
  · rintro ⟨h0, h⟩
    exact ⟨h0, fun k => ⟨h0, fun n => h (vAt k n)⟩⟩

end Cert.Chamfer

end
-- ==== Proof.KernelCarried.lean ====
/-
  The two carried scratch buffers, point by point. After grid point t (batch tile t / 8, v-tile t % 8) the column
  minimum buffer holds, at (r, l), the minimum of d(v, l) over the v-tiles 0 … t % 8 of batch 8·(t/8) + r, and the row
  sum buffer the sum of the row minima over those tiles; so after a row's last point (t % 8 = 7) the output block
  holds the chamfer value of its eight batches in every lane. By induction on the point: the first point of a row
  resets and updates, every other point updates what the point before left.
-/
import proofs.«142281_j9534827397593_1_alg».proof.Proof.Gen.KernelIdeal.Frame
import proofs.«142281_j9534827397593_1_alg».proof.Proof.KernelPieces
import proofs.«142281_j9534827397593_1_alg».proof.Proof.KernelBlocks
import proofs.«142281_j9534827397593_1_alg».proof.Proof.KernelPayloads
import proofs.«142281_j9534827397593_1_alg».proof.Proof.ChamferTiles
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Carried
open Cert.KernelIdeal Cert.KernelIdeal.Gen Cert.Chamfer Idealize.ShloMosaic.ValueIdx
open Cert.KernelIdeal.Blocks Cert.KernelIdeal.Pieces Cert.KernelIdeal.Payloads

variable (m : (ℓ : Loc nD τ sig) → Buf (Elt Ideal) ℓ)

/-- A distance inside the point's blocks is the distance in the arrays at the point's rows. -/
theorem dist_blk (c : Dev nD) (t : Fin cfg0.N) (r : Fin 8) (n : Fin 128) (l : Fin 512) :
    Cert.Chamfer.dist (xblk m c t) (yblk m c t) r n l = Cert.Chamfer.dist (xarr m c) (yarr m c) (bAt (tileOf t) r) (vAt (stepOf t) n) l := by
  unfold Cert.Chamfer.dist
  simp only [xblk_apply, yblk_apply]

/-- What the two buffers hold after point t. -/
def cmAt (c : Dev nD) (t : Fin cfg0.N) : Vec Ideal S8x512 .f32 :=
  fun j => colMinUpTo (xarr m c) (yarr m c) (bAt (tileOf t) (j 0)) (stepOf t).val (j 1)
def rsAt (c : Dev nD) (t : Fin cfg0.N) : Vec Ideal S8x1 .f32 :=
  fun j => rowSumUpTo (xarr m c) (yarr m c) (bAt (tileOf t) (j 0)) (stepOf t).val

/-- One point's update of a carried column minimum and of a carried row sum, in the arrays' terms. -/
theorem cm_update (c : Dev nD) (t : Fin cfg0.N) (prev : Vec Ideal S8x512 .f32) (r : Fin 8) (l : Fin 512) :
    k0_pay1 (F := Ideal) (k0_pay7 (F := Ideal) (xblk m c t) (yblk m c t) prev) (ix2 r l)
      = min (prev (ix2 r l)) (tileColMin (xarr m c) (yarr m c) (bAt (tileOf t) r) (stepOf t) l) := by
  rw [pay1_eq, pay7_apply]
  unfold tileColMin
  simp only [dist_blk]

theorem rs_update (c : Dev nD) (t : Fin cfg0.N) (prev : Vec Ideal S8x1 .f32) (r : Fin 8) (z : Fin 1) :
    k0_pay6 (F := Ideal) (xblk m c t) (yblk m c t) prev (ix2 r z)
      = prev (ix2 r z) + tileRowSum (xarr m c) (yarr m c) (bAt (tileOf t) r) (stepOf t) := by
  rw [pay6_apply]
  unfold tileRowSum rowMin
  simp only [dist_blk]

/-- The running values one tile further. -/
theorem cm_step (X : SX.Idx → EReal) (Y : SY.Idx → EReal) (b : Fin 64) (k : ℕ) (kf : Fin 8) (hk : kf.val = k + 1) (l : Fin 512) :
    min (colMinUpTo X Y b k l) (tileColMin X Y b kf l) = colMinUpTo X Y b kf.val l := by
  have hlt : k + 1 < 8 := hk ▸ kf.isLt
  obtain rfl : kf = ⟨k + 1, hlt⟩ := Fin.ext hk
  exact (colMinUpTo_succ X Y b k hlt l).symm

theorem rs_step (X : SX.Idx → EReal) (Y : SY.Idx → EReal) (b : Fin 64) (k : ℕ) (kf : Fin 8) (hk : kf.val = k + 1) :
    rowSumUpTo X Y b k + tileRowSum X Y b kf = rowSumUpTo X Y b kf.val := by
  have hlt : k + 1 < 8 := hk ▸ kf.isLt
  obtain rfl : kf = ⟨k + 1, hlt⟩ := Fin.ext hk
  exact (rowSumUpTo_succ X Y b k hlt).symm

/-- The invariant at point t. -/
def Holds (c : Dev nD) (n : ℕ) (h : n < cfg0.N) : Prop :=
  (outsAt0 m c n h).2.1 = cmAt m c ⟨n, h⟩ ∧ (outsAt0 m c n h).2.2 = rsAt m c ⟨n, h⟩

/-- At the first point of a row: the reset values, updated by the first tile. -/
theorem holds_first (c : Dev nD) (t : Fin cfg0.N) (h0 : t.val % 8 = 0) : Holds m c t.val t.isLt := by
  have h1 : ¬t.val % 8 = 7 := by omega
  have hs : stepOf t = 0 := Fin.ext h0
  unfold Holds
  rw [outsAt0_A m c t h0 h1]
  dsimp only
  refine ⟨(colMin_first c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t)).trans ?_,
    (rowSum_first c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t)).trans ?_⟩
  · funext j
    obtain ⟨r, l, rfl⟩ : ∃ (r : Fin 8) (l : Fin 512), j = ix2 r l := ⟨j 0, j 1, eq_ix2 j⟩
    refine (cm_update m c t _ r l).trans ?_
    rw [pay3_apply]
    show _ = colMinUpTo (xarr m c) (yarr m c) (bAt (tileOf t) r) (stepOf t).val l
    rw [hs]
    exact (colMinUpTo_zero _ _ _ l).symm
  · funext j
    obtain ⟨r, z, rfl⟩ : ∃ (r : Fin 8) (z : Fin 1), j = ix2 r z := ⟨j 0, j 1, eq_ix2 j⟩
    refine (rs_update m c t _ r z).trans ?_
    rw [pay4_apply]
    show _ = rowSumUpTo (xarr m c) (yarr m c) (bAt (tileOf t) r) (stepOf t).val
    rw [hs]
    exact (rowSumUpTo_zero _ _ _).symm

/-- At any other point: what the point before left, updated by this point's tile. -/
theorem holds_next (c : Dev nD) (t : Fin cfg0.N) (h0 : ¬t.val % 8 = 0)
    (ih : Holds m c (t.val - 1) (Nat.lt_of_le_of_lt (Nat.sub_le _ _) t.isLt)) : Holds m c t.val t.isLt := by
  have hN : t.val < 64 := lt_of_lt_of_eq t.isLt (show cfg0.N = 64 from N_0)
  have htile : tileOf ⟨t.val - 1, Nat.lt_of_le_of_lt (Nat.sub_le _ _) t.isLt⟩ = tileOf t := Fin.ext (by show (t.val - 1) / 8 = t.val / 8; omega)
  have hstep : (stepOf t).val = (stepOf ⟨t.val - 1, Nat.lt_of_le_of_lt (Nat.sub_le _ _) t.isLt⟩).val + 1 := by
    show t.val % 8 = (t.val - 1) % 8 + 1; omega
  obtain ⟨ih1, ih2⟩ := ih
  have key : k0_pay1 (F := Ideal) (k0_pay7 (F := Ideal) (xblk m c t) (yblk m c t) (outsAt0 m c (t.val - 1) (Nat.lt_of_le_of_lt (Nat.sub_le _ _) t.isLt)).2.1) = cmAt m c t
      ∧ k0_pay6 (F := Ideal) (xblk m c t) (yblk m c t) (outsAt0 m c (t.val - 1) (Nat.lt_of_le_of_lt (Nat.sub_le _ _) t.isLt)).2.2 = rsAt m c t := by
    rw [ih1, ih2]
    constructor
    · funext j
      obtain ⟨r, l, rfl⟩ : ∃ (r : Fin 8) (l : Fin 512), j = ix2 r l := ⟨j 0, j 1, eq_ix2 j⟩
      refine (cm_update m c t _ r l).trans ?_
      show min (colMinUpTo (xarr m c) (yarr m c) (bAt (tileOf _) r) (stepOf _).val l) _ = colMinUpTo (xarr m c) (yarr m c) (bAt (tileOf t) r) (stepOf t).val l
      rw [htile]
      exact cm_step _ _ _ _ (stepOf t) hstep l
    · funext j
      obtain ⟨r, z, rfl⟩ : ∃ (r : Fin 8) (z : Fin 1), j = ix2 r z := ⟨j 0, j 1, eq_ix2 j⟩
      refine (rs_update m c t _ r z).trans ?_
      show rowSumUpTo (xarr m c) (yarr m c) (bAt (tileOf _) r) (stepOf _).val + _ = rowSumUpTo (xarr m c) (yarr m c) (bAt (tileOf t) r) (stepOf t).val
      rw [htile]
      exact rs_step _ _ _ _ (stepOf t) hstep
  unfold Holds
  by_cases h1 : t.val % 8 = 7
  · rw [outsAt0_C m c t h0 h1]
    dsimp only
    exact ⟨(colMin_last c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).trans key.1,
      (rowSum_last c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).trans key.2⟩
  · rw [outsAt0_B m c t h0 h1]
    dsimp only
    exact ⟨(colMin_mid c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).trans key.1,
      (rowSum_mid c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).trans key.2⟩

/-- The invariant at every point, by induction on the point. -/
theorem holds (c : Dev nD) : ∀ (n : ℕ) (h : n < cfg0.N), Holds m c n h
  | 0, h => holds_first m c ⟨0, h⟩ rfl
  | n + 1, h => by
    by_cases h0 : (n + 1) % 8 = 0
    · exact holds_first m c ⟨n + 1, h⟩ h0
    · exact holds_next m c ⟨n + 1, h⟩ h0 (holds c n (Nat.lt_of_succ_lt h))

/-- After a row's last point the output block holds the chamfer value of the row's batches, in every lane. -/
theorem out_last_eq (c : Dev nD) (t : Fin cfg0.N) (h1 : t.val % 8 = 7) :
    (outsAt0 m c t.val t.isLt).1 = fun j => chamfer (xarr m c) (yarr m c) (bAt (tileOf t) (j 0)) := by
  have h0 : ¬t.val % 8 = 0 := by omega
  have hc := holds m c t.val t.isLt
  unfold Holds at hc
  rw [outsAt0_C m c t h0 h1] at hc ⊢
  dsimp only at hc ⊢
  obtain ⟨hc1, hc2⟩ := hc
  have e7 := (colMin_last c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).symm.trans hc1
  have e6 := (rowSum_last c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).symm.trans hc2
  refine (out_last c (grid0.coords t) (ms0_0 t) (hs0_0 t) (ms0_1 t) (hs0_1 t) (ms0_2 t) (hs0_2 t) scM0_0 (Memref.isWhole_whole _) scM0_1 (Memref.isWhole_whole _) _ _ (iblk m c 0 t) (iblk m c 1 t) _ _).trans ?_
  rw [e6, e7]
  funext j
  obtain ⟨r, q, rfl⟩ : ∃ (r : Fin 8) (q : Fin 128), j = ix2 r q := ⟨j 0, j 1, eq_ix2 j⟩
  rw [pay2_apply]
  have hs : (stepOf t).val = 7 := h1
  show Ideal.div (rowSumUpTo (xarr m c) (yarr m c) (bAt (tileOf t) r) (stepOf t).val) nv
    + Ideal.div (∑ l : Fin 512, colMinUpTo (xarr m c) (yarr m c) (bAt (tileOf t) r) (stepOf t).val l) nl = chamfer (xarr m c) (yarr m c) (bAt (tileOf t) r)
  rw [hs]
  unfold chamfer
  rw [rowSumUpTo_last]
  simp only [colMinUpTo_last]

end Cert.KernelIdeal.Carried

end
-- ==== Proof.KernelResult.lean ====
/-
  The kernel's result array. Only the last point of each row of the grid writes the output block back, and its
  block is rows 8·(t/8) … 8·(t/8) + 7 of the [64, 128] output, all 128 lanes; the eight rows' last points cover the
  array, so it ends holding the chamfer value of batch b in every lane of row b. The two host operations after the
  region take lane 0 of every row: the program's result at b is the chamfer value of b.
-/
import proofs.«142281_j9534827397593_1_alg».proof.Proof.Gen.KernelIdeal.Frame
import proofs.«142281_j9534827397593_1_alg».proof.Proof.KernelCarried
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Result
open Cert.KernelIdeal Cert.KernelIdeal.Gen Cert.Chamfer Idealize.ShloMosaic.ValueIdx
open Cert.KernelIdeal.Blocks Cert.KernelIdeal.Carried

variable (m : (ℓ : Loc nD τ sig) → Buf (Elt Ideal) ℓ) (ρ : Dev nD → PrngReg)

/-- What the [64, 128] output array ends holding, and the program's [64] result. -/
abbrev lanes (c : Dev nD) : Buf (Elt Ideal) ((c : Thread nD τ).loc main_v0) := fun i => chamfer (xarr m c) (yarr m c) (i 0)
abbrev result (c : Dev nD) : Buf (Elt Ideal) ((c : Thread nD τ).loc main_v2) := fun i => chamfer (xarr m c) (yarr m c) (i 0)

/-- The output window's printed index map over the grid. -/
theorem idx_o : ∀ t : Fin cfg0.N, win0_2.index t (0 : Fin 2) = t.val / 8 ∧ win0_2.index t (1 : Fin 2) = 0 :=
  (by decide +kernel : ∀ t : Fin grid0.N, _)

/-- What a row's last point writes back is its block of `lanes`. -/
theorem flushed_eq (c : Dev nD) (t : Fin cfg0.N) (hf : (cfg0.win 2).flush t = true) :
    (dats m 0 c).flushed 2 t = ((cfg0.win 2).blk t).view.read (Elt Ideal) (lanes m c) := by
  have h7 : t.val % 8 = 7 := (flush0_2 t).mp hf
  obtain ⟨e0, e1⟩ := idx_o t
  show (cfg0.win 2).cut (grid0.coords t) ((dats m 0 c).after 2 t) = _
  rw [after0_2, out_last_eq m c t h7]
  funext j
  show chamfer (xarr m c) (yarr m c) (bAt (tileOf t) (j 0)) = chamfer (xarr m c) (yarr m c) ((((cfg0.win 2).blk t).view.emb j) 0)
  congr 1
  apply Fin.ext
  show 8 * (t.val / 8) + (j 0).val = win0_2.index t (0 : Fin 2) * 8 + 1 * (j 0).val
  rw [e0]; omega

/-- Every index of the output array lies in the block of its row's last point. -/
theorem covered (c : Dev nD) (i : S64x128.Idx) :
    ∃ t : Fin cfg0.N, (cfg0.win 2).flush t = true ∧ i ∈ ((cfg0.win 2).blk t).view.set := by
  have h0 : (i 0).val < 64 := (i 0).isLt
  have h1 : (i 1).val < 128 := (i 1).isLt
  have hN : cfg0.N = 64 := N_0
  let t : Fin cfg0.N := ⟨8 * ((i 0).val / 8) + 7, by rw [hN]; omega⟩
  obtain ⟨e0, e1⟩ := idx_o t
  have tv : t.val = 8 * ((i 0).val / 8) + 7 := rfl
  refine ⟨t, (flush0_2 t).mpr (by rw [tv]; omega), ?_⟩
  show i ∈ ((View.whole main_v0).slice (win0_2.rect t)).set
  rw [View.set_slice_whole, Rect.mem_set_unit]
  intro a
  match a with
  | ⟨0, _⟩ => show win0_2.index t (0 : Fin 2) * 8 ≤ (i 0).val ∧ (i 0).val < win0_2.index t (0 : Fin 2) * 8 + 8; rw [e0, tv]; omega
  | ⟨1, _⟩ => show win0_2.index t (1 : Fin 2) * 128 ≤ (i 1).val ∧ (i 1).val < win0_2.index t (1 : Fin 2) * 128 + 128; rw [e1]; omega

/-- So the output array ends at `lanes`. -/
theorem final_o (c : Dev nD) : (dats m 0 c).arrAt 2 cfg0.N = lanes m c :=
  (dats m 0 c).arrAt_eq_of_cover 2 (lanes m c) (flushed_eq m c) (covered c)

/-- The two host operations after the region read lane 0 of every row. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.tc.devRef main_v0)
      = lanes m c := (Pipeline.withArrays_arr spec0 launch0.win.arr_inj c _ _ 2).trans (final_o m c)
  funext i
  obtain ⟨b, rfl⟩ : ∃ b : Fin 64, i = ix1 b := ⟨i 0, eq_ix1 i⟩
  show shapeCast S64 (extractStridedSlice S64x1 ![0, 0]
      (Pipeline.withArrays (cfgs 0).spec c (V0 m c) (fun w => (dats m 0 c).arrAt w (cfgs 0).N) (Proc.tc.devRef main_v0))
      slices_S64x128_S64x1_0_0) shapeCasts_S64x1_S64 (ix1 b) = chamfer (xarr m c) (yarr m c) b
  rw [hW]
  rw [shapeCast_apply _ shapeCasts_S64x1_S64 (ix1 b) (ix2 b (0 : Fin 1)) (by
    rw [Shape.rowMajor_val_two, Shape.rowMajor_val_one]; show b.val * 1 + 0 = b.val; omega)]
  rw [extractStridedSlice_apply ![0, 0] _ slices_S64x128_S64x1_0_0 (ix2 b (0 : Fin 1)) (ix2 b (0 : Fin 128)) (by
    intro a; match a with
    | ⟨0, _⟩ => show b.val = 0 + b.val; omega
    | ⟨1, _⟩ => show (0 : ℕ) = 0 + 0; rfl)]
  rfl

/-- The run, read: the program's result at the chamfer values, the two arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefChamfer.lean ====
/-
  The reference's result, read index by index over the extended reals, is the chamfer value of the batch.
-/
import proofs.«142281_j9534827397593_1_alg».proof.Proof.Gen.ReferenceIdeal.Read
import proofs.«142281_j9534827397593_1_alg».proof.Proof.ChamferSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Chamfer

/-- The elementwise stage before the two minima, at (b, v, l), is the expanded squared distance d(v, l) of batch b. -/
private theorem dist_apply (X : (⟨S64x1024x512, .f32⟩ : BufTy).Contents (Elt Ideal)) (Y : (⟨S64x512x512, .f32⟩ : BufTy).Contents (Elt Ideal))
    (b : Fin 64) (v : Fin 1024) (l : Fin 512) : val_main_v13 (F := Ideal) X Y (ix3 b v l) = dist X Y b v l := by
  rw [val_main_v13_apply, val_main_v10_apply, val_main_v9_apply, val_main_v2_apply, val_main_v1_apply,
    val_main_v8_apply, val_main_v7_apply, val_main_cst_1_apply, val_main_v6_apply,
    val_main_v12_apply, val_main_v11_apply, val_main_v5_apply, val_main_v4_apply, val_main_cst_apply, val_main_cst_0_apply]
  simp only [val_main_v0_apply, val_main_v3_apply, Ideal.addf_def, Ideal.subf_def, Ideal.mulf_def, Ideal.ofBits_def,
    Ideal.ofBits_zero_f32, zero_add]
  -- each composed index function, at (b, v, l) and a contraction coordinate k, is a coordinate triple
  have e1 : ∀ k : Fin 512, idx_main_v1 (idx_main_v2 (idx_main_v9 (ix3 b v l))) k = ix3 b v k := fun k =>
    funext fun a => Fin.ext (by match a with | ⟨0, _⟩ => rfl | ⟨1, _⟩ => rfl | ⟨2, _⟩ => rfl)
  have e2 : ∀ k : Fin 512, lidx_main_v6 (ix3 b v l) k = ix3 b v k := fun k =>
    funext fun a => Fin.ext (by match a with | ⟨0, _⟩ => rfl | ⟨1, _⟩ => rfl | ⟨2, _⟩ => rfl)
  have e3 : ∀ k : Fin 512, ridx_main_v6 (ix3 b v l) k = ix3 b l k := fun k =>
    funext fun a => Fin.ext (by match a with | ⟨0, _⟩ => rfl | ⟨1, _⟩ => rfl | ⟨2, _⟩ => rfl)
  have e4 : ∀ k : Fin 512, idx_main_v4 (idx_main_v5 (idx_main_v11 (idx_main_v12 (ix3 b v l)))) k = ix3 b l k := fun k =>
    funext fun a => Fin.ext (by match a with | ⟨0, _⟩ => rfl | ⟨1, _⟩ => rfl | ⟨2, _⟩ => rfl)
  simp only [e1, e2, e3, e4]
  rfl

/-- The minimum over l from +∞ of the stage before, at (b, v): the nearest y-row to x-row v. -/
private theorem rowMin_apply (X : (⟨S64x1024x512, .f32⟩ : BufTy).Contents (Elt Ideal)) (Y : (⟨S64x512x512, .f32⟩ : BufTy).Contents (Elt Ideal))
    (b : Fin 64) (v : Fin 1024) : val_main_v14 (F := Ideal) X Y (ix2 b v) = rowMin X Y b v := by
  have h : S64x1024x512.Reduces [2] S64x1024 := by decide
  unfold val_main_v14
  rw [Host.reduce_eq_fold_single FloatOps.minimumf _ _ reducesTo_S64x1024x512_S64x1024_d2 h h_S_]
  -- (b, v) with l inserted on the last axis is (b, v, l)
  have hf : (val_main_v13 (F := Ideal) X Y ∘ h.lift (ix2 b v)) = fun l : Fin 512 => dist X Y b v l :=
    funext fun (l : Fin 512) => by
      have hl : h.lift (ix2 b v) l = ix3 b v l :=
        funext fun a => Fin.ext (by match a with | ⟨0, _⟩ => rfl | ⟨1, _⟩ => rfl | ⟨2, _⟩ => rfl)
      show val_main_v13 (F := Ideal) X Y (h.lift (ix2 b v) l) = _
      rw [hl]
      exact dist_apply X Y b v l
  rw [hf]
  rfl

/-- The minimum over v from +∞ of the same stage, at (b, l): the nearest x-row to y-row l. -/
private theorem colMin_apply (X : (⟨S64x1024x512, .f32⟩ : BufTy).Contents (Elt Ideal)) (Y : (⟨S64x512x512, .f32⟩ : BufTy).Contents (Elt Ideal))
    (b : Fin 64) (l : Fin 512) : val_main_v18 (F := Ideal) X Y (ix2 b l) = colMin X Y b l := by
  have h : S64x1024x512.Reduces [1] S64x512 := by decide
  unfold val_main_v18
  rw [Host.reduce_eq_fold_single FloatOps.minimumf _ _ reducesTo_S64x1024x512_S64x512_d1 h h_S_]
  -- (b, l) with v inserted on the middle axis is (b, v, l)
  have hf : (val_main_v13 (F := Ideal) X Y ∘ h.lift (ix2 b l)) = fun v : Fin 1024 => dist X Y b v l :=
    funext fun (v : Fin 1024) => by
      have hv : h.lift (ix2 b l) v = ix3 b v l :=
        funext fun a => Fin.ext (by match a with | ⟨0, _⟩ => rfl | ⟨1, _⟩ => rfl | ⟨2, _⟩ => rfl)
      show val_main_v13 (F := Ideal) X Y (h.lift (ix2 b l) v) = _
      rw [hv]
      exact dist_apply X Y b v l
  rw [hf]
  rfl

/-- The reference's last stage at batch b is the chamfer value of b. -/
theorem ref_apply (X : (⟨S64x1024x512, .f32⟩ : BufTy).Contents (Elt Ideal)) (Y : (⟨S64x512x512, .f32⟩ : BufTy).Contents (Elt Ideal))
    (b : Fin 64) : val_main_v22 (F := Ideal) X Y (ix1 b) = chamfer X Y b := by
  rw [val_main_v22_apply, val_main_v17_apply, val_main_v21_apply, val_main_v15_apply, val_main_v19_apply,
    val_main_v16_apply, val_main_v20_apply, val_main_cst_4_apply, val_main_cst_7_apply, val_main_cst_3_apply,
    val_main_cst_6_apply]
  simp only [Ideal.addf_def, Ideal.hostDivf_def, Ideal.ofBits_def, Ideal.ofBits_zero_f32, zero_add]
  -- batch b with a coordinate k appended is (b, k)
  have e1 : ∀ k : Fin 1024, idx_main_v15 (ix1 b) k = ix2 b k := fun k =>
    funext fun a => Fin.ext (by match a with | ⟨0, _⟩ => rfl | ⟨1, _⟩ => rfl)
  have e2 : ∀ k : Fin 512, idx_main_v19 (ix1 b) k = ix2 b k := fun k =>
    funext fun a => Fin.ext (by match a with | ⟨0, _⟩ => rfl | ⟨1, _⟩ => rfl)
  simp only [e1, e2, rowMin_apply, colMin_apply]
  rfl

end Cert.ReferenceIdeal.RefValue

end
-- ==== Proof.lean ====
/-
  The chamfer distance between two point sets per batch, computed by a tiled kernel and by a plain reference, is one
  function of the arguments over the extended reals.

  Both programs form the expanded squared distance d(v, l) = (|x_v|² − 2·⟨x_v, y_l⟩) + |y_l|² for every pair of an
  x-row v and a y-row l of a batch, take the minimum over l for every v and the minimum over v for every l, and return
  (∑_v min_l d) / 1024 + (∑_l min_v d) / 512. The reference does this on whole arrays. The kernel walks, for each
  tile of eight batches, the 1024 x-rows in eight tiles of 128: it keeps the sum of the row minima seen so far and the
  minimum down the columns seen so far in two scratch buffers, reset at a row's first tile, and combines them at
  the last tile; its bf16 casts before the matrix product are the identity at the exact instance.

  The two sides meet by regrouping only: a sum over 1024 rows is the sum of eight sums over 128 rows, a minimum
  likewise, and +∞ is neutral for the minimum — laws of a commutative monoid and of a linear order, which hold on
  all extended reals, so the finiteness of the inputs is never used.

  The kernel's frames are the generated ones. Its value is read off the generated frame run: what each control case
  leaves in the scratch buffers (KernelPieces) is the body's arithmetic of the point's blocks (KernelPayloads) at the
  arrays' own rows (KernelBlocks); by induction on the grid point the buffers hold the running sum and running
  minimum (KernelCarried), so the last point of each row writes the chamfer values of its batches, these blocks
  cover the output array, and the two host operations after the region read lane 0 of it (KernelResult). The
  reference's run is the generated one, read stage by stage (RefChamfer).
-/
import proofs.«142281_j9534827397593_1_alg».proof.Defs
import proofs.«142281_j9534827397593_1_alg».proof.Proof.Gen.Kernel
import proofs.«142281_j9534827397593_1_alg».proof.Proof.Gen.Kernel.Skeleton
import proofs.«142281_j9534827397593_1_alg».proof.Proof.Gen.Kernel.Launch
import proofs.«142281_j9534827397593_1_alg».proof.Proof.Gen.Kernel.Points
import proofs.«142281_j9534827397593_1_alg».proof.Proof.Gen.Kernel.Frame
import proofs.«142281_j9534827397593_1_alg».proof.Proof.Gen.KernelIdeal
import proofs.«142281_j9534827397593_1_alg».proof.Proof.Gen.KernelIdeal.Skeleton
import proofs.«142281_j9534827397593_1_alg».proof.Proof.Gen.KernelIdeal.Launch
import proofs.«142281_j9534827397593_1_alg».proof.Proof.Gen.KernelIdeal.Points
import proofs.«142281_j9534827397593_1_alg».proof.Proof.Gen.KernelIdeal.Frame
import proofs.«142281_j9534827397593_1_alg».proof.Proof.Gen.ReferenceIdeal
import proofs.«142281_j9534827397593_1_alg».proof.Proof.Gen.Pre_finite_inputs
import proofs.«142281_j9534827397593_1_alg».proof.Proof.Gen.ReferenceIdeal.Run
import proofs.«142281_j9534827397593_1_alg».proof.Proof.Gen.ReferenceIdeal.Read
import proofs.«142281_j9534827397593_1_alg».proof.Proof.KernelResult
import proofs.«142281_j9534827397593_1_alg».proof.Proof.RefChamfer
import Idealize.ShloMosaic.Adequacy
import Idealize.ShloMosaic.Init

noncomputable section

namespace Cert.Proof

open Idealize.ShloMosaic Idealize.ShloMosaic.TcCoe Idealize.SL.Sem Idealize.ShloMosaic.ValueIdx

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the
    chamfer value of every batch. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v22 (F := Ideal) _ _ = _
  rw [(hagree c).1, (hagree c).2]
  funext i
  obtain ⟨b, rfl⟩ : ∃ b : Fin 64, i = ix1 b := ⟨i 0, eq_ix1 i⟩
  exact Cert.ReferenceIdeal.RefValue.ref_apply _ _ b

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
